-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S512x512 : Shape := ⟨2, ![512, 512]⟩
abbrev S1024x512 : Shape := ⟨2, ![1024, 512]⟩
abbrev S1x1024 : Shape := ⟨2, ![1, 1024]⟩
abbrev S512x1024 : Shape := ⟨2, ![512, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x512, .f32⟩
  | .local _ .vmem, ⟨1, _⟩ => ⟨S512x512, .f32⟩
  | .local _ .vmem, ⟨2, _⟩ => ⟨S1024x512, .i32⟩
  | .local _ .vmem, ⟨3, _⟩ => ⟨S1024x512, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.ScaleOutOfSum.lean ====
/-
  The arithmetic that joins the two programs, on real numbers carried into the extended reals.

  A row of 4096 entries is read by the kernel as 8 tiles of 512: entry `512 * d + l` is entry `l` of tile `d`.
  The kernel sums the products tile by tile and multiplies the finished sum by the channel's scale; the reference
  multiplies every weight by the scale first and sums once over the whole row. For real numbers the two agree:
  a sum over 4096 indices is the double sum over (tile, entry), and a factor common to every term of a finite
  sum of reals comes out of the sum. Neither step is valid at an infinity, which is why the statement is about
  coerced reals only.
-/
import Idealize.ShloMosaic.PureOps.Ideal

open scoped BigOperators

namespace Cert.DequantMatmul

/-- Entry `l` of tile `d` of a row of 4096: column `512 * d + l`. -/
abbrev col (d : Fin 8) (l : Fin 512) : Fin 4096 := ⟨512 * d.val + l.val, by have := d.isLt; have := l.isLt; omega⟩

/-- The coercion of the reals into the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a row of 4096 is the sum over its 8 tiles of the sums over each tile's 512 entries. -/
theorem sum_by_tiles (f : Fin 4096 → ℝ) : ∑ k : Fin 4096, f k = ∑ d : Fin 8, ∑ l : Fin 512, f (col d l) := by
  have e : ∑ p : Fin 8 × Fin 512, f (finProdFinEquiv p) = ∑ k : Fin 4096, f k :=
    Equiv.sum_comp (finProdFinEquiv (m := 8) (n := 512)) f
  rw [← e, Fintype.sum_prod_type]
  refine Finset.sum_congr rfl fun d _ => Finset.sum_congr rfl fun l _ => congrArg f (Fin.ext ?_)
  show l.val + 512 * d.val = 512 * d.val + l.val
  omega

/-- THE LAW. For real `a`, `b`, `s`, `β`: the tile-by-tile sum of the products `a k * b k`, scaled by `s` afterwards and
    shifted by `β`, is the single sum of `a k * (b k * s)` shifted by `β`. -/
theorem scale_after_eq_scale_inside (a b : Fin 4096 → ℝ) (s β : ℝ) :
    (∑ d : Fin 8, ∑ l : Fin 512, ((a (col d l) : ℝ) : EReal) * ((b (col d l) : ℝ) : EReal)) * (s : EReal) + (β : EReal)
      = (∑ k : Fin 4096, (a k : EReal) * ((b k : EReal) * (s : EReal))) + (β : EReal) := by
  have L : (∑ d : Fin 8, ∑ l : Fin 512, ((a (col d l) : ℝ) : EReal) * ((b (col d l) : ℝ) : EReal))
      = ((∑ k : Fin 4096, a k * b k : ℝ) : EReal) := by
    rw [sum_by_tiles (fun k => a k * b k), coe_finsum]
    refine Finset.sum_congr rfl fun d _ => ?_
    rw [coe_finsum]
    exact Finset.sum_congr rfl fun l _ => (EReal.coe_mul _ _).symm
  have R : (∑ k : Fin 4096, (a k : EReal) * ((b k : EReal) * (s : EReal)))
      = (((∑ k : Fin 4096, a k * b k) * s : ℝ) : EReal) := by
    rw [Finset.sum_mul, coe_finsum]
    refine Finset.sum_congr rfl fun k _ => ?_
    rw [← EReal.coe_mul, ← EReal.coe_mul, mul_assoc]
  rw [L, R, EReal.coe_mul]

end Cert.DequantMatmul
-- ==== Proof.Spec.lean ====
/-
  The two spellings of the dequantized linear layer, as functions of the four argument arrays, entry by entry.

  Entry (b, s, o) of the result is the dot product of row (b, s) of `x` with row `o` of the integer weights, scaled by
  `scale[o]`, plus `bias[o]`. The kernel's spelling sums the 4096 products tile by tile (8 tiles of 512) and scales
  the finished sum; the reference's spelling scales each weight first and sums once. When every entry of `x`,
  `scale` and `bias` is a real number (the weights, being integers, always are) the two are one function.
-/
import proofs.«106776_j81750407512101_1_alg».proof.Proof.ScaleOutOfSum
import Idealize.ShloMosaic.Lib.ValueIdx

open scoped BigOperators

noncomputable section

namespace Cert.DequantMatmul

open Idealize.ShloMosaic Idealize.ShloMosaic.ValueIdx

/-- The shapes of `x` and the result, of the weights, and of `scale` and `bias`. -/
abbrev ShX : Shape := ⟨3, ![4, 2048, 4096]⟩
abbrev ShW : Shape := ⟨2, ![4096, 4096]⟩
abbrev ShV : Shape := ⟨1, ![4096]⟩

/-- The kernel's spelling: tile by tile, scaled afterwards. -/
def scaleAfter (x : ShX.Idx → EReal) (w : ShW.Idx → BitVec 32) (sc bi : ShV.Idx → EReal) : ShX.Idx → EReal := fun j =>
  (∑ d : Fin 8, ∑ l : Fin 512, x (ix3 (j 0) (j 1) (col d l)) * (((w (ix2 (j 2) (col d l))).toInt : ℝ) : EReal))
    * sc (ix1 (j 2)) + bi (ix1 (j 2))

/-- The reference's spelling: each weight scaled, one sum. -/
def scaleInside (x : ShX.Idx → EReal) (w : ShW.Idx → BitVec 32) (sc bi : ShV.Idx → EReal) : ShX.Idx → EReal := fun j =>
  (∑ k : Fin 4096, x (ix3 (j 0) (j 1) k) * ((((w (ix2 (j 2) k)).toInt : ℝ) : EReal) * sc (ix1 (j 2)))) + bi (ix1 (j 2))

/-- On real inputs the two spellings agree. -/
theorem scaleAfter_eq_scaleInside (x : ShX.Idx → EReal) (w : ShW.Idx → BitVec 32) (sc bi : ShV.Idx → EReal)
    (hx : ∀ j, ∃ r : ℝ, x j = (r : EReal)) (hs : ∀ j, ∃ r : ℝ, sc j = (r : EReal)) (hb : ∀ j, ∃ r : ℝ, bi j = (r : EReal)) :
    scaleAfter x w sc bi = scaleInside x w sc bi := by
  choose xr hxr using hx
  choose sr hsr using hs
  choose br hbr using hb
  funext j
  unfold scaleAfter scaleInside
  simp only [hxr, hsr, hbr]
  exact scale_after_eq_scale_inside (fun k => xr (ix3 (j 0) (j 1) k)) (fun k => ((w (ix2 (j 2) k)).toInt : ℝ))
    (sr (ix1 (j 2))) (br (ix1 (j 2)))

end Cert.DequantMatmul

end
-- ==== Proof.FiniteInputs.lean ====
/-
  The precondition, read back: every entry of `x`, `scale` and `bias` is a real number.

  The precondition is the conjunction of three "all entries have absolute value below +∞" tests, one per float
  input, each an and-reduction of the entrywise comparison. A conjunction that is 1 has both parts 1; an
  and-reduction over every axis that is 1 has a 1 at every entry; and an extended real whose absolute value
  `max x (-x)` is strictly below +∞ is neither infinity, hence a real.
-/
import proofs.«106776_j81750407512101_1_alg».proof.Proof.Gen.Pre_finite_inputs
import Idealize.ShloMosaic.Lib.ReduceAll
import Idealize.ShloMosaic.Lib.ValueIdx
import Idealize.ShloMosaic.PureOps.Ideal.Laws

namespace Cert.Pre_finite_inputs.Finite

open Cert.Pre_finite_inputs Idealize.ShloMosaic

instance : Subsingleton S_.Idx := ⟨fun a b => funext fun d => d.elim0⟩

/-- The word the tests compare against denotes +∞. -/
theorem inf_word : Ideal.ofBits .f32 0x7F800000#32 = ⊤ := by simp [Ideal.ofBits, Ideal.ieee]

/-- An extended real whose absolute value is strictly below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition the three float inputs are real everywhere. -/
theorem finite_of_pre (x0 : FVec Ideal S4x2048x4096 .f32) (x1 : IVec S4096x4096 32) (x2 x3 : FVec Ideal S4096 .f32)
    (h : fn (F := Ideal) x0 x1 x2 x3 = fun _ => 1#1) :
    (∀ j, ∃ r : ℝ, x0 j = (r : EReal)) ∧ (∀ j, ∃ r : ℝ, x2 j = (r : EReal)) ∧ (∀ j, ∃ r : ℝ, x3 j = (r : EReal)) := by
  have h' := congrFun h ValueIdx.ix0
  dsimp only [fn] at h'
  obtain ⟨h8, h12⟩ := IntOp.andi_eq_one.1 h'
  obtain ⟨h3, h7⟩ := IntOp.andi_eq_one.1 h8
  refine ⟨fun j => ?_, fun j => ?_, fun j => ?_⟩
  · have e : Ideal.cmp .olt (max (x0 j) (-(x0 j))) (Ideal.ofBits .f32 0x7F800000#32) = 1#1 :=
      Host.reduce_andi_all _ _ _ _ _ h3 j
    rw [inf_word] at e
    exact real_of_abs_lt_top _ e
  · have e : Ideal.cmp .olt (max (x2 j) (-(x2 j))) (Ideal.ofBits .f32 0x7F800000#32) = 1#1 :=
      Host.reduce_andi_all _ _ _ _ _ h7 j
    rw [inf_word] at e
    exact real_of_abs_lt_top _ e
  · have e : Ideal.cmp .olt (max (x3 j) (-(x3 j))) (Ideal.ofBits .f32 0x7F800000#32) = 1#1 :=
      Host.reduce_andi_all _ _ _ _ _ h12 j
    rw [inf_word] at e
    exact real_of_abs_lt_top _ e

end Cert.Pre_finite_inputs.Finite
-- ==== Proof.PointValue.lean ====
/-
  What one grid point's body leaves behind, as values.

  The body keeps a [512, 1024] accumulator in a scratch buffer across the 8 points that share an output tile. At a
  tile's first point it stores zeros into the accumulator and reads them back; at every point it adds the product
  of the point's x block and weight block to what the accumulator holds; at a tile's last point it reads the
  accumulator once more, multiplies by the scale row, adds the bias row and stores the output block.

  So the accumulator after a point is "the product step applied to what it held before" (to zeros, at a first
  point), and the output block after a last point is "scale and shift" applied to the accumulator the same point
  just wrote. Each lemma below reads one buffer's covering store back as its payload, for any float instance.
-/
import proofs.«106776_j81750407512101_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PointValue

open Cert.KernelIdeal Cert.KernelIdeal.Gen

variable {F : FTy → Type} [FloatOps F]

/-- The zero offsets of a whole-buffer access. -/
theorem zero_offsets : (![0, 0] : Fin 2 → Nat) = fun _ => 0 := funext fun a => by fin_cases a <;> rfl

/-- A point that is neither first nor last in its tile: the accumulator ends at the product step over what it held. -/
theorem acc_middle (c : Dev nD) (i : grid0.Coords) (a3 : Memref sig .tc .vmem S512x512 .f32) (h3 : a3.IsWhole) (a4 : Memref sig .tc .vmem S1024x512 .i32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : ¬cond0_1 i) (x0 : Vec F S512x512 .f32) (x1 : Vec F S1024x512 .i32) (x2 : Vec F S1x1024 .f32) (x3 : Vec F S1x1024 .f32) (xs0 : Vec F S512x1024 .f32) :
    sout0_B_0 c i a3 h3 a4 h4 a5 h5 a6 h6 a7 h7 a8 h8 hc0 hc1 x0 x1 x2 x3 xs0 = k0_pay2 x0 x1 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero zero_offsets]
  simp only [View.readAt_eq_ld, h3.read_unread, h4.read_unread, h8.read_unread,
    View.ld_unit_zero (S := S512x512) zero_offsets, View.ld_unit_zero (S := S1024x512) zero_offsets,
    View.ld_unit_zero (S := S512x1024) zero_offsets]

/-- A tile's last point: the accumulator ends the same way; -/
theorem acc_last (c : Dev nD) (i : grid0.Coords) (a3 : Memref sig .tc .vmem S512x512 .f32) (h3 : a3.IsWhole) (a4 : Memref sig .tc .vmem S1024x512 .i32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i) (x0 : Vec F S512x512 .f32) (x1 : Vec F S1024x512 .i32) (x2 : Vec F S1x1024 .f32) (x3 : Vec F S1x1024 .f32) (xs0 : Vec F S512x1024 .f32) :
    sout0_C_0 c i a3 h3 a4 h4 a5 h5 a6 h6 a7 h7 a8 h8 hc0 hc1 x0 x1 x2 x3 xs0 = k0_pay2 x0 x1 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero zero_offsets]
  simp only [View.readAt_eq_ld, h3.read_unread, h4.read_unread, h8.read_unread,
    View.ld_unit_zero (S := S512x512) zero_offsets, View.ld_unit_zero (S := S1024x512) zero_offsets,
    View.ld_unit_zero (S := S512x1024) zero_offsets]

/-- and the output block is the scale-and-shift of that accumulator, read back after its store. -/
theorem out_last (c : Dev nD) (i : grid0.Coords) (a3 : Memref sig .tc .vmem S512x512 .f32) (h3 : a3.IsWhole) (a4 : Memref sig .tc .vmem S1024x512 .i32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i) (x0 : Vec F S512x512 .f32) (x1 : Vec F S1024x512 .i32) (x2 : Vec F S1x1024 .f32) (x3 : Vec F S1x1024 .f32) (xs0 : Vec F S512x1024 .f32) :
    out0_C_4 c i a3 h3 a4 h4 a5 h5 a6 h6 a7 h7 a8 h8 hc0 hc1 x0 x1 x2 x3 xs0 = k0_pay3 x2 x3 (k0_pay2 x0 x1 xs0) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero zero_offsets]
  simp only [View.readAt_eq_ld, h3.read_unread, h4.read_unread, h5.read_unread, h6.read_unread, h8.read_unread,
    View.readCov_unit_zero (S := S512x1024) _ zero_offsets,
    View.ld_unit_zero (S := S512x512) zero_offsets, View.ld_unit_zero (S := S1024x512) zero_offsets,
    View.ld_unit_zero (S := S512x1024) zero_offsets, View.ld_unit_zero (S := S1x1024) zero_offsets]

/-- A tile's first point: zeros are stored and read back, so the accumulator ends at the product step over zeros. -/
theorem acc_first (c : Dev nD) (i : grid0.Coords) (a3 : Memref sig .tc .vmem S512x512 .f32) (h3 : a3.IsWhole) (a4 : Memref sig .tc .vmem S1024x512 .i32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : cond0_0 i) (hc1 : ¬cond0_1 i) (x0 : Vec F S512x512 .f32) (x1 : Vec F S1024x512 .i32) (x2 : Vec F S1x1024 .f32) (x3 : Vec F S1x1024 .f32) :
    sout0_A_0 c i a3 h3 a4 h4 a5 h5 a6 h6 a7 h7 a8 h8 hc0 hc1 x0 x1 x2 x3 = k0_pay2 x0 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x1024) zero_offsets]
  simp only [View.readAt_eq_ld, h3.read_unread, h4.read_unread,
    View.readCov_unit_zero (S := S512x1024) _ zero_offsets,
    View.ld_unit_zero (S := S512x512) zero_offsets, View.ld_unit_zero (S := S1024x512) zero_offsets]

end Cert.KernelIdeal.PointValue

end
-- ==== Proof.Accumulator.lean ====
/-
  The accumulator across the grid, for any float instance.

  The 512 grid points run in order; point `n` is step `n % 8` of output tile `n / 8`. The accumulator after point `n`
  is the product step of point `n`'s blocks over the accumulator after point `n - 1`, except that a tile's first
  point (`n % 8 = 0`) starts again from zeros. `accAfter` is that recursion written down; `scratch_eq` says the
  generated run's scratch component is it, by induction on the point (never by listing the grid); `tile_sum`
  unrolls it over the 8 points of one tile; `block_written` says the block a tile's last point stores is the
  epilogue of the accumulator that point leaves.
-/
import proofs.«106776_j81750407512101_1_alg».proof.Proof.PointValue

noncomputable section

open Idealize.ShloMosaic Idealize.ShloMosaic.TcCoe Idealize.SL.Sem
open Idealize.ShloMosaic.Pipeline (Dat)

namespace Cert.KernelIdeal.Accumulator

open Cert.KernelIdeal Cert.KernelIdeal.Gen Cert.KernelIdeal.PointValue

variable {F : FTy → Type} [FloatOps F]
variable (m : (ℓ : Loc nD τ sig) → Buf (Elt F) ℓ)

/-- Point `t`'s x block, weight block, scale row and bias row, at their literal types. -/
abbrev xBlk (c : Dev nD) (t : Fin cfg0.N) : Vec F S512x512 .f32 := iblk m c 0 t
abbrev wBlk (c : Dev nD) (t : Fin cfg0.N) : Vec F S1024x512 .i32 := iblk m c 1 t
abbrev sBlk (c : Dev nD) (t : Fin cfg0.N) : Vec F S1x1024 .f32 := iblk m c 2 t
abbrev bBlk (c : Dev nD) (t : Fin cfg0.N) : Vec F S1x1024 .f32 := iblk m c 3 t

/-- The accumulator after point `n`. -/
def accAfter (c : Dev nD) : (n : ℕ) → n < cfg0.N → Vec F S512x1024 .f32
  | 0, h => k0_pay2 (xBlk m c ⟨0, h⟩) (wBlk m c ⟨0, h⟩) (k0_pay1 (F := F))
  | n + 1, h => k0_pay2 (xBlk m c ⟨n + 1, h⟩) (wBlk m c ⟨n + 1, h⟩)
      (if (n + 1) % 8 = 0 then k0_pay1 (F := F) else accAfter c n (Nat.lt_of_succ_lt h))

theorem accAfter_succ (c : Dev nD) (n : ℕ) (h : n + 1 < cfg0.N) :
    accAfter m c (n + 1) h = k0_pay2 (xBlk m c ⟨n + 1, h⟩) (wBlk m c ⟨n + 1, h⟩)
      (if (n + 1) % 8 = 0 then k0_pay1 (F := F) else accAfter m c n (Nat.lt_of_succ_lt h)) := rfl

/-- At a tile's first point the accumulator restarts from zeros. -/
theorem accAfter_first (c : Dev nD) (n : ℕ) (h : n < cfg0.N) (h0 : n % 8 = 0) :
    accAfter m c n h = k0_pay2 (xBlk m c ⟨n, h⟩) (wBlk m c ⟨n, h⟩) (k0_pay1 (F := F)) := by
  cases n with
  | zero => rfl
  | succ n => rw [accAfter_succ, if_pos h0]

/-- The generated run's scratch component after point `n` is `accAfter`. -/
theorem scratch_eq (c : Dev nD) : ∀ (n : ℕ) (h : n < cfg0.N), (outsAt0 m c n h).2 = accAfter m c n h
  | 0, h => by
    rw [outsAt0_A m c ⟨0, h⟩ rfl (by show ¬(0 % 8 = 7); omega)]
    dsimp only
    exact acc_first ..
  | n + 1, h => by
    by_cases h0 : (n + 1) % 8 = 0
    · have h1 : ¬(n + 1) % 8 = 7 := by omega
      rw [outsAt0_A m c ⟨n + 1, h⟩ h0 h1]
      dsimp only
      rw [acc_first, accAfter_succ, if_pos h0]
    · by_cases h1 : (n + 1) % 8 = 7
      · rw [outsAt0_C m c ⟨n + 1, h⟩ h0 h1]
        dsimp only
        rw [acc_last, accAfter_succ, if_neg h0]
        show k0_pay2 _ _ (outsAt0 m c n _).2 = k0_pay2 _ _ (accAfter m c n _)
        rw [scratch_eq c n]
      · rw [outsAt0_B m c ⟨n + 1, h⟩ h0 h1]
        dsimp only
        rw [acc_middle, accAfter_succ, if_neg h0]
        show k0_pay2 _ _ (outsAt0 m c n _).2 = k0_pay2 _ _ (accAfter m c n _)
        rw [scratch_eq c n]

/-- The block a tile's last point stores: the epilogue of the accumulator that point leaves. -/
theorem block_written (c : Dev nD) (t : Fin cfg0.N) (h7 : t.val % 8 = 7) :
    (outsAt0 m c t.val t.isLt).1 = k0_pay3 (sBlk m c t) (bBlk m c t) (accAfter m c t.val t.isLt) := by
  have h0 : ¬t.val % 8 = 0 := by omega
  have hs := scratch_eq m c t.val t.isLt
  rw [outsAt0_C m c t h0 h7] at hs ⊢
  dsimp only at hs ⊢
  rw [acc_last] at hs
  rw [out_last, hs]

/-- One tile's 8 points unrolled: from zeros, the 8 product steps in order. -/
theorem tile_sum (c : Dev nD) (n : ℕ) (h : n + 7 < cfg0.N) (h0 : n % 8 = 0) :
    accAfter m c (n + 7) h =
      k0_pay2 (xBlk m c ⟨n + 7, h⟩) (wBlk m c ⟨n + 7, h⟩)
      (k0_pay2 (xBlk m c ⟨n + 6, by omega⟩) (wBlk m c ⟨n + 6, by omega⟩)
      (k0_pay2 (xBlk m c ⟨n + 5, by omega⟩) (wBlk m c ⟨n + 5, by omega⟩)
      (k0_pay2 (xBlk m c ⟨n + 4, by omega⟩) (wBlk m c ⟨n + 4, by omega⟩)
      (k0_pay2 (xBlk m c ⟨n + 3, by omega⟩) (wBlk m c ⟨n + 3, by omega⟩)
      (k0_pay2 (xBlk m c ⟨n + 2, by omega⟩) (wBlk m c ⟨n + 2, by omega⟩)
      (k0_pay2 (xBlk m c ⟨n + 1, by omega⟩) (wBlk m c ⟨n + 1, by omega⟩)
      (k0_pay2 (xBlk m c ⟨n, by omega⟩) (wBlk m c ⟨n, by omega⟩) (k0_pay1 (F := F))))))))) := by
  rw [accAfter_succ m c (n + 6), if_neg (by omega), accAfter_succ m c (n + 5), if_neg (by omega),
    accAfter_succ m c (n + 4), if_neg (by omega), accAfter_succ m c (n + 3), if_neg (by omega),
    accAfter_succ m c (n + 2), if_neg (by omega), accAfter_succ m c (n + 1), if_neg (by omega),
    accAfter_succ m c n, if_neg (by omega), accAfter_first m c n _ h0]

end Cert.KernelIdeal.Accumulator

end
-- ==== Proof.PayloadAt.lean ====
/-
  The body's three payloads read at one entry of the [512, 1024] tile, over the extended reals.

  The reset payload is zero everywhere. The product step at row `p`, column `q` adds to the accumulator's entry the
  sum over the 512 entries `l` of the x block's row `p` times the weight block's row `q` (the weight word read as the
  signed integer it is, exactly; the change of float format before the matrix unit is the identity here). The
  epilogue multiplies the accumulator's entry by entry `q` of the one-row scale block and adds entry `q` of the
  one-row bias block: both rows are broadcast down the 512 rows of the tile.
-/
import proofs.«106776_j81750407512101_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.PayloadAt

open Cert.KernelIdeal Cert.KernelIdeal.Gen Idealize.ShloMosaic.ValueIdx

/-- The matrix product's left operand index on its kept axis: the output row. -/
theorem lhs_row (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
/-- On its contracted axis: the contraction index. -/
theorem lhs_contr (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
/-- The right operand index on its kept axis: the output column. -/
theorem rhs_row (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
/-- On its contracted axis: the contraction index. -/
theorem rhs_contr (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The reset payload is zero at every entry. -/
theorem reset_at (j : S512x1024.Idx) : k0_pay1 (F := Ideal) j = 0 := by
  unfold k0_pay1
  simp only [shapeCast_self]
  exact Ideal.ofBits_zero_f32

/-- The product of an x block and a weight block at (p, q): the sum over the shared axis. -/
theorem product_at (x : FVec Ideal S512x512 .bf16) (w : FVec Ideal S1024x512 .bf16) (p : Fin 512) (q : Fin 1024) :
    matmul dot_S512x512_S1024x512_S512x1024_1_1_0_0_n_n none x w (constant S512x1024 .f32 0x00000000#32) (ix2 p q)
      = ∑ l : Fin 512, x (ix2 p l) * w (ix2 q l) := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p q) ((contrEquiv1 dot_S512x512_S1024x512_S512x1024_1_1_0_0_n_n 512 rfl rfl).symm k) = ix2 p k := funext fun a => Fin.ext (by
    match a with
    | ⟨0, _⟩ => exact lhs_row _ _
    | ⟨1, _⟩ => exact (lhs_contr _ _).trans hk)
  have er : dot_S512x512_S1024x512_S512x1024_1_1_0_0_n_n.rhsIdx (ix2 p q) ((contrEquiv1 dot_S512x512_S1024x512_S512x1024_1_1_0_0_n_n 512 rfl rfl).symm k) = ix2 q k := funext fun a => Fin.ext (by
    match a with
    | ⟨0, _⟩ => exact rhs_row _ _
    | ⟨1, _⟩ => exact (rhs_contr _ _).trans hk)
  rw [el, er]

/-- The product step at (p, q). -/
theorem step_at (x : Vec Ideal S512x512 .f32) (w : Vec Ideal S1024x512 .i32) (acc : Vec Ideal S512x1024 .f32)
    (p : Fin 512) (q : Fin 1024) :
    k0_pay2 x w acc (ix2 p q) = acc (ix2 p q) + ∑ l : Fin 512, x (ix2 p l) * (((w (ix2 q l)).toInt : ℝ) : EReal) := by
  unfold k0_pay2
  simp only [shapeCast_self]
  refine (addf_apply _ _ _).trans ?_
  rw [product_at]
  rfl

/-- The epilogue at (p, q). -/
theorem epilogue_at (s b : Vec Ideal S1x1024 .f32) (acc : Vec Ideal S512x1024 .f32) (p : Fin 512) (q : Fin 1024) :
    k0_pay3 s b acc (ix2 p q) = acc (ix2 p q) * s (ix2 0 q) + b (ix2 0 q) := by
  unfold k0_pay3
  simp only [shapeCast_self]
  refine (addf_apply _ _ _).trans ?_
  rw [broadcastTo_apply b broadcasts_S1x1024_S512x1024 (ix2 p q) (ix2 0 q) (fun a => by
    match a with
    | ⟨0, _⟩ => rfl
    | ⟨1, _⟩ => rfl)]
  refine congrArg (· + b (ix2 0 q)) ?_
  refine (mulf_apply _ _ _).trans ?_
  rw [broadcastTo_apply s broadcasts_S1x1024_S512x1024 (ix2 p q) (ix2 0 q) (fun a => by
    match a with
    | ⟨0, _⟩ => rfl
    | ⟨1, _⟩ => rfl)]

end Cert.KernelIdeal.PayloadAt

end
-- ==== Proof.TileArray.lean ====
/-
  From tiles to the whole [8192, 4096] array, over the extended reals.

  The grid is 16 × 4 × 8, last axis fastest: point `t` is row tile `t / 32`, column tile `t / 8 % 4`, step `t % 8`.
  At that point the x block is rows `512 * (t / 32) ..` and columns `512 * (t % 8) ..` of the flattened input, the
  weight block is rows `1024 * (t / 8 % 4) ..` and the same columns of the weight matrix, the scale and bias rows
  are columns `1024 * (t / 8 % 4) ..` of their one-row arrays, and the output block (written back when
  `t % 8 = 7`) is rows `512 * (t / 32) ..`, columns `1024 * (t / 8 % 4) ..` of the result.

  So entry (r, o) of the result is written once, by the last point of the tile that holds it, and is
  (the sum over the 8 column tiles `d` of the sum over `l < 512` of x[r, 512 d + l] · w[o, 512 d + l]) · scale[o] + bias[o],
  the 8 partial sums having been added in order starting from zero. The output tiles cover the array.
-/
import proofs.«106776_j81750407512101_1_alg».proof.Proof.Accumulator
import proofs.«106776_j81750407512101_1_alg».proof.Proof.PayloadAt
import proofs.«106776_j81750407512101_1_alg».proof.Proof.ScaleOutOfSum
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.TileArray

open Cert.KernelIdeal Cert.KernelIdeal.Gen Cert.KernelIdeal.Accumulator Cert.KernelIdeal.PayloadAt
open Idealize.ShloMosaic.ValueIdx Cert.DequantMatmul

variable (m : (ℓ : Loc nD τ sig) → Buf (Elt Ideal) ℓ)

/-- Column tile `d`'s share of the dot product of row `r` of `X` with row `o` of `W` (the weight read as an integer). -/
def tileDot (X : Vec Ideal S8192x4096 .f32) (W : Vec Ideal S4096x4096 .i32) (r : Fin 8192) (o : Fin 4096) (d : Fin 8) : EReal :=
  ∑ l : Fin 512, X (ix2 r (col d l)) * (((W (ix2 o (col d l))).toInt : ℝ) : EReal)

/-- The result array as one function of the four arrays the region finds. -/
def scaledRows (X : Vec Ideal S8192x4096 .f32) (W : Vec Ideal S4096x4096 .i32) (S B : Vec Ideal S1x4096 .f32) :
    S8192x4096.Idx → EReal := fun j =>
  (∑ d : Fin 8, tileDot X W (j 0) (j 1) d) * S (ix2 0 (j 1)) + B (ix2 0 (j 1))

/-- The printed index maps, decided once over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- The x block at a point is the stated rectangle of the flattened input. -/
theorem x_read (c : Dev nD) (t : Fin cfg0.N) (p l : Fin 512) (r : Fin 8192) (k : Fin 4096)
    (hr : r.val = 512 * (t.val / 32) + p.val) (hk : k.val = 512 * (t.val % 8) + l.val) :
    xBlk m c t (ix2 p l) = V m c main_v0 (ix2 r k) := by
  obtain ⟨e0, e1, -⟩ := idx_facts t
  unfold xBlk iblk
  rw [View.read_apply]
  show V m c main_v0 _ = V m c main_v0 _
  congr 1
  funext a
  apply Fin.ext
  match a with
  | ⟨0, _⟩ => show win0_0.index t (0 : Fin 2) * 512 + 1 * p.val = r.val; rw [e0]; omega
  | ⟨1, _⟩ => show win0_0.index t (1 : Fin 2) * 512 + 1 * l.val = k.val; rw [e1]; omega

/-- The weight block likewise. -/
theorem w_read (c : Dev nD) (t : Fin cfg0.N) (q : Fin 1024) (l : Fin 512) (o k : Fin 4096)
    (ho : o.val = 1024 * (t.val / 8 % 4) + q.val) (hk : k.val = 512 * (t.val % 8) + l.val) :
    wBlk m c t (ix2 q l) = V m c main_arg1 (ix2 o k) := by
  obtain ⟨-, -, e0, e1, -⟩ := idx_facts t
  unfold wBlk iblk
  rw [View.read_apply]
  show V m c main_arg1 _ = V m c main_arg1 _
  congr 1
  funext a
  apply Fin.ext
  match a with
  | ⟨0, _⟩ => show win0_1.index t (0 : Fin 2) * 1024 + 1 * q.val = o.val; rw [e0]; omega
  | ⟨1, _⟩ => show win0_1.index t (1 : Fin 2) * 512 + 1 * l.val = k.val; rw [e1]; omega

/-- The scale row. -/
theorem s_read (c : Dev nD) (t : Fin cfg0.N) (q : Fin 1024) (o : Fin 4096)
    (ho : o.val = 1024 * (t.val / 8 % 4) + q.val) :
    sBlk m c t (ix2 0 q) = V m c main_v1 (ix2 0 o) := by
  obtain ⟨-, -, -, -, e0, e1, -⟩ := idx_facts t
  unfold sBlk iblk
  rw [View.read_apply]
  show V m c main_v1 _ = V m c main_v1 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = o.val; rw [e1]; omega

/-- The bias row. -/
theorem b_read (c : Dev nD) (t : Fin cfg0.N) (q : Fin 1024) (o : Fin 4096)
    (ho : o.val = 1024 * (t.val / 8 % 4) + q.val) :
    bBlk m c t (ix2 0 q) = V m c main_v2 (ix2 0 o) := by
  obtain ⟨-, -, -, -, -, -, e0, e1, -⟩ := idx_facts t
  unfold bBlk iblk
  rw [View.read_apply]
  show V m c main_v2 _ = V m c main_v2 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * q.val = o.val; rw [e1]; omega

/-- One product step's sum, over the arrays: point `t` contributes column tile `t % 8`. -/
theorem tile_read (c : Dev nD) (t : Fin cfg0.N) (p : Fin 512) (q : Fin 1024) (r : Fin 8192) (o : Fin 4096) (d : Fin 8)
    (hr : r.val = 512 * (t.val / 32) + p.val) (ho : o.val = 1024 * (t.val / 8 % 4) + q.val) (hd : d.val = t.val % 8) :
    ∑ l : Fin 512, xBlk m c t (ix2 p l) * (((wBlk m c t (ix2 q l)).toInt : ℝ) : EReal)
      = tileDot (V m c main_v0) (V m c main_arg1) r o d := by
  unfold tileDot
  refine Finset.sum_congr rfl fun l _ => ?_
  rw [x_read m c t p l r (col d l) hr (by show 512 * d.val + l.val = _; rw [hd]),
    w_read m c t q l o (col d l) ho (by show 512 * d.val + l.val = _; rw [hd])]

/-- What a tile's last point stores, entry by entry. -/
theorem block_at (c : Dev nD) (t : Fin cfg0.N) (h7 : t.val % 8 = 7) (p : Fin 512) (q : Fin 1024) (r : Fin 8192) (o : Fin 4096)
    (hr : r.val = 512 * (t.val / 32) + p.val) (ho : o.val = 1024 * (t.val / 8 % 4) + q.val) :
    k0_pay3 (sBlk m c t) (bBlk m c t) (accAfter m c t.val t.isLt) (ix2 p q)
      = scaledRows (V m c main_v0) (V m c main_arg1) (V m c main_v1) (V m c main_v2) (ix2 r o) := by
  rw [epilogue_at, s_read m c t q o ho, b_read m c t q o ho]
  obtain ⟨tv, ht⟩ := t
  dsimp only at h7 hr ho ⊢
  obtain ⟨n, rfl⟩ : ∃ n, tv = n + 7 := ⟨tv - 7, by omega⟩
  have hN : n + 7 < 512 := lt_of_lt_of_eq ht (show cfg0.N = 512 from N_0)
  rw [tile_sum m c n ht (by omega)]
  simp only [step_at, reset_at]
  rw [tile_read m c ⟨n + 7, ht⟩ p q r o 7 (by dsimp only; omega) (by dsimp only; omega) (by dsimp only; omega),
    tile_read m c ⟨n + 6, by omega⟩ p q r o 6 (by dsimp only; omega) (by dsimp only; omega) (by dsimp only; omega),
    tile_read m c ⟨n + 5, by omega⟩ p q r o 5 (by dsimp only; omega) (by dsimp only; omega) (by dsimp only; omega),
    tile_read m c ⟨n + 4, by omega⟩ p q r o 4 (by dsimp only; omega) (by dsimp only; omega) (by dsimp only; omega),
    tile_read m c ⟨n + 3, by omega⟩ p q r o 3 (by dsimp only; omega) (by dsimp only; omega) (by dsimp only; omega),
    tile_read m c ⟨n + 2, by omega⟩ p q r o 2 (by dsimp only; omega) (by dsimp only; omega) (by dsimp only; omega),
    tile_read m c ⟨n + 1, by omega⟩ p q r o 1 (by dsimp only; omega) (by dsimp only; omega) (by dsimp only; omega),
    tile_read m c ⟨n, by omega⟩ p q r o 0 (by dsimp only; omega) (by dsimp only; omega) (by dsimp only; omega)]
  unfold scaledRows
  rw [Fin.sum_univ_eight, zero_add]

/-- An index of the result is in point `t`'s block iff each coordinate is in the block's range on its axis. -/
theorem mem_blk (t : Fin cfg0.N) (i : S8192x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3).slice (win0_4.rect t)).set ↔ _
  rw [View.set_slice_whole, Rect.mem_set_unit]
  exact Iff.rfl

/-- WHAT A WRITING POINT WRITES BACK is its block of `scaledRows`. -/
theorem flushed_eq (c : Dev nD) (t : Fin cfg0.N) (hf : (cfg0.win 4).flush t = true) :
    (dats m 0 c).flushed 4 t = ((cfg0.win 4).blk t).view.read (Elt Ideal)
      (scaledRows (V m c main_v0) (V m c main_arg1) (V m c main_v1) (V m c main_v2)) := by
  have h7 : t.val % 8 = 7 := (flush0_4 t).mp hf
  obtain ⟨-, -, -, -, -, -, -, -, e0, e1⟩ := idx_facts t
  show (cfg0.win 4).cut (grid0.coords t) ((dats m 0 c).after 4 t) = _
  rw [after0_4, block_written m c t h7]
  funext y
  show k0_pay3 (sBlk m c t) (bBlk m c t) (accAfter m c t.val t.isLt) y
    = scaledRows (V m c main_v0) (V m c main_arg1) (V m c main_v1) (V m c main_v2) (((cfg0.win 4).blk t).view.emb y)
  refine (congrArg _ (eq_ix2 y)).trans ?_
  refine Eq.trans ?_ (congrArg _ (eq_ix2 (((cfg0.win 4).blk t).view.emb y))).symm
  refine block_at m c t h7 (y 0) (y 1) _ _ ?_ ?_
  · show win0_4.index t (0 : Fin 2) * 512 + 1 * (y 0).val = _; rw [e0]; omega
  · show win0_4.index t (1 : Fin 2) * 1024 + 1 * (y 1).val = _; rw [e1]; omega

/-- Every entry of the result lies in the block of its tile's last point. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 512 := N_0
  obtain ⟨t, htv⟩ : ∃ t : Fin cfg0.N, t.val = 32 * ((i 0).val / 512) + 8 * ((i 1).val / 1024) + 7 :=
    ⟨⟨32 * ((i 0).val / 512) + 8 * ((i 1).val / 1024) + 7, by rw [hN]; omega⟩, rfl⟩
  obtain ⟨-, -, -, -, -, -, -, -, e0, e1⟩ := idx_facts t
  refine ⟨t, (flush0_4 t).mpr (by omega), ?_⟩
  rw [mem_blk]
  intro a
  match a with
  | ⟨0, _⟩ => show win0_4.index t (0 : Fin 2) * 512 ≤ (i 0).val ∧ (i 0).val < win0_4.index t (0 : Fin 2) * 512 + 512; rw [e0]; omega
  | ⟨1, _⟩ => show win0_4.index t (1 : Fin 2) * 1024 ≤ (i 1).val ∧ (i 1).val < win0_4.index t (1 : Fin 2) * 1024 + 1024; rw [e1]; omega

/-- THE RESULT ARRAY after the run. -/
theorem final (c : Dev nD) : (dats m 0 c).arrAt 4 cfg0.N
    = scaledRows (V m c main_v0) (V m c main_arg1) (V m c main_v1) (V m c main_v2) :=
  (dats m 0 c).arrAt_eq_of_cover 4 _ (flushed_eq m c) cover

end Cert.KernelIdeal.TileArray

end
-- ==== Proof.KernelResult.lean ====
/-
  The idealized kernel program's result, entry by entry, over the extended reals.

  Around the tiled region the program only re-lays arrays: `x` [4, 2048, 4096] is flattened to [8192, 4096] (row
  `2048 b + s`), `scale` and `bias` become one-row matrices, and the region's [8192, 4096] result is unflattened
  back to [4, 2048, 4096]. Reading the region's result (`TileArray.final`) through those re-layings gives entry
  (b, s, o) as the tile-by-tile dot product of x[b, s, ·] with the integer weights' row o, times scale[o], plus
  bias[o] — the spelling `scaleAfter`. The argument arrays end as they began.
-/
import proofs.«106776_j81750407512101_1_alg».proof.Proof.TileArray
import proofs.«106776_j81750407512101_1_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.TileArray
open Idealize.ShloMosaic.ValueIdx Cert.DequantMatmul

variable (m : (ℓ : Loc nD τ sig) → Buf (Elt Ideal) ℓ) (ρ : Dev nD → PrngReg)

/-- The region finds `x` flattened, -/
theorem x_flat (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl
/-- `scale` as one row, -/
theorem scale_row (c : Dev nD) : (V m c main_v1 : S1x4096.Idx → EReal)
    = shapeCast S1x4096 (m ((c : Thread nD τ).loc main_arg2)) shapeCasts_S4096_S1x4096 := by
  show StableHlo.after hostOps0 (fun b => m (c, b)) (Proc.devRef .tc main_v1) = _
  after_results
  rfl
/-- and `bias` as one row. -/
theorem bias_row (c : Dev nD) : (V m c main_v2 : S1x4096.Idx → EReal)
    = shapeCast S1x4096 (m ((c : Thread nD τ).loc main_arg3)) shapeCasts_S4096_S1x4096 := by
  show StableHlo.after hostOps0 (fun b => m (c, b)) (Proc.devRef .tc main_v2) = _
  after_results
  rfl

/-- Row `2048 b + s` of the flattened `x` is row (b, s) of `x`. -/
theorem x_flat_at (c : Dev nD) (b : Fin 4) (s : Fin 2048) (k : Fin 4096) (r : Fin 8192) (hr : r.val = 2048 * b.val + s.val) :
    V m c main_v0 (ix2 r k) = m ((c : Thread nD τ).loc main_arg0) (ix3 b s k) := by
  refine (congrFun (x_flat m c) (ix2 r k)).trans ?_
  refine shapeCast_apply _ _ (ix2 r k) (ix3 b s k) ?_
  rw [Shape.rowMajor_val_three, Shape.rowMajor_val_two]
  show (b.val * 2048 + s.val) * 4096 + k.val = r.val * 4096 + k.val
  omega
/-- Entry (0, o) of the scale row is `scale[o]`. -/
theorem scale_row_at (c : Dev nD) (o : Fin 4096) :
    V m c main_v1 (ix2 0 o) = m ((c : Thread nD τ).loc main_arg2) (ix1 o) := by
  refine (congrFun (scale_row m c) (ix2 0 o)).trans ?_
  refine shapeCast_apply _ _ (ix2 0 o) (ix1 o) ?_
  rw [Shape.rowMajor_val_one, Shape.rowMajor_val_two]
  show o.val = 0 * 4096 + o.val
  omega
/-- Entry (0, o) of the bias row is `bias[o]`. -/
theorem bias_row_at (c : Dev nD) (o : Fin 4096) :
    V m c main_v2 (ix2 0 o) = m ((c : Thread nD τ).loc main_arg3) (ix1 o) := by
  refine (congrFun (bias_row m c) (ix2 0 o)).trans ?_
  refine shapeCast_apply _ _ (ix2 0 o) (ix1 o) ?_
  rw [Shape.rowMajor_val_one, Shape.rowMajor_val_two]
  show o.val = 0 * 4096 + o.val
  omega

/-- The program's result buffer: the region's result array, unflattened. -/
theorem tail_eq (c : Dev nD) : Pipeline.afterTail₀ cfgs (dats m) 0 (V0 m) [hostOps1] c main_v4
    = shapeCast S4x2048x4096 (scaledRows (V m c main_v0) (V m c main_arg1) (V m c main_v1) (V m c main_v2))
        shapeCasts_S8192x4096_S4x2048x4096 := by
  unfold Pipeline.afterTail₀
  show StableHlo.after hostOps1 _ (Proc.devRef .tc main_v4) = _
  after_results
  exact congrArg (fun v => shapeCast S4x2048x4096 v shapeCasts_S8192x4096_S4x2048x4096)
    ((Pipeline.withArrays_arr spec0 launch0.win.arr_inj c _ _ 4).trans (final m c))

/-- Read at (b, s, o): the kernel's spelling of the layer. -/
theorem result_at (c : Dev nD) (j : S4x2048x4096.Idx) :
    shapeCast S4x2048x4096 (scaledRows (V m c main_v0) (V m c main_arg1) (V m c main_v1) (V m c main_v2))
        shapeCasts_S8192x4096_S4x2048x4096 j
      = scaleAfter (m ((c : Thread nD τ).loc main_arg0)) (m ((c : Thread nD τ).loc main_arg1))
          (m ((c : Thread nD τ).loc main_arg2)) (m ((c : Thread nD τ).loc main_arg3)) j := by
  obtain ⟨b, s, o, rfl⟩ : ∃ (b : Fin 4) (s : Fin 2048) (o : Fin 4096), j = ix3 b s o := ⟨j 0, j 1, j 2, eq_ix3 j⟩
  have hb : b.val < 4 := b.isLt
  have hs : s.val < 2048 := s.isLt
  obtain ⟨r, hr⟩ : ∃ r : Fin 8192, r.val = 2048 * b.val + s.val := ⟨⟨2048 * b.val + s.val, by omega⟩, rfl⟩
  refine (shapeCast_apply _ _ (ix3 b s o) (ix2 r o) ?_).trans ?_
  · rw [Shape.rowMajor_val_three, Shape.rowMajor_val_two]
    show r.val * 4096 + o.val = (b.val * 2048 + s.val) * 4096 + o.val
    omega
  · show (∑ d : Fin 8, tileDot (V m c main_v0) (V m c main_arg1) r o d) * V m c main_v1 (ix2 0 o) + V m c main_v2 (ix2 0 o) = _
    rw [scale_row_at, bias_row_at]
    refine congrArg (fun t => t * m ((c : Thread nD τ).loc main_arg2) (ix1 o) + m ((c : Thread nD τ).loc main_arg3) (ix1 o)) ?_
    refine Finset.sum_congr rfl fun d _ => ?_
    unfold tileDot
    refine Finset.sum_congr rfl fun l _ => ?_
    rw [x_flat_at m c b s (col d l) r hr, V_main_arg1]

/-- THE RUN, READ: the result buffer at `scaleAfter` of the argument arrays, which end unchanged. -/
theorem run : θ_run defs (onTc (τ := τ) (main (F := Ideal))) ⟨m, fun _ => 0, ρ⟩ fun r => ∀ c : Dev nD,
      r.2.mem ((c.tc : Thread nD τ).loc main_v4)
        = scaleAfter (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v4 (Pipeline.mem_restRefs_of main_v4 (by decide) (by decide))).trans
        ((tail_eq m c).trans (funext (result_at m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceResult.lean ====
/-
  The reference program's result, entry by entry, over the extended reals.

  The reference turns the integer weights into floats (exactly: the integer itself), broadcasts `scale` along the
  weight matrix's rows and multiplies, contracts `x`'s last axis against the scaled weights' last axis, and adds
  `bias` broadcast over the leading axes. Read at (b, s, o): the sum over k of x[b, s, k] · (w[o, k] · scale[o]),
  plus bias[o] — the spelling `scaleInside`.
-/
import proofs.«106776_j81750407512101_1_alg».proof.Proof.Gen.ReferenceIdeal.Read
import proofs.«106776_j81750407512101_1_alg».proof.Proof.Spec

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Read Idealize.ShloMosaic.ValueIdx Cert.DequantMatmul

/-- The contraction's left index: `x` at (b, s, k). -/
theorem lidx_eq (i : S4x2048x4096.Idx) (k : Fin 4096) : lidx_main_v4 i k = ix3 (i 0) (i 1) k :=
  funext fun a => Fin.ext (by match a with | ⟨0, _⟩ => rfl | ⟨1, _⟩ => rfl | ⟨2, _⟩ => rfl)
/-- Its right index: the scaled weights at (o, k). -/
theorem ridx_eq (i : S4x2048x4096.Idx) (k : Fin 4096) : ridx_main_v4 i k = ix2 (i 2) k :=
  funext fun a => Fin.ext (by match a with | ⟨0, _⟩ => rfl | ⟨1, _⟩ => rfl)
/-- The two broadcasts of `scale` read it at the weight's row. -/
theorem sidx_eq (i : S4096x4096.Idx) : idx_main_v1 (idx_main_v2 i) = ix1 (i 0) :=
  funext fun a => Fin.ext (by match a with | ⟨0, _⟩ => rfl)
/-- The two broadcasts of `bias` read it at the last coordinate. -/
theorem bidx_eq (i : S4x2048x4096.Idx) : idx_main_v5 (idx_main_v6 i) = ix1 (i 2) :=
  funext fun a => Fin.ext (by match a with | ⟨0, _⟩ => rfl)

/-- The reference's last stage is `scaleInside` of the arguments. -/
theorem stage_eq (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = scaleInside x0 x1 x2 x3 := by
  funext i
  rw [val_main_v7_apply, val_main_v4_apply, val_main_v6_apply, val_main_v5_apply]
  unfold scaleInside
  simp only [lidx_eq, ridx_eq, bidx_eq]
  show (∑ k : Fin 4096, (x0 (ix3 (i 0) (i 1) k) : EReal)
      * ((val_main_v0 (F := Ideal) x1 (ix2 (i 2) k) : EReal) * (val_main_v2 (F := Ideal) x2 (ix2 (i 2) k) : EReal)))
      + (x3 (ix1 (i 2)) : EReal) = _
  simp only [val_main_v2_apply, val_main_v1_apply, sidx_eq]
  rfl

end Cert.ReferenceIdeal.RefValue

end
-- ==== Proof.lean ====
/-
  A per-channel dequantized linear layer: `y[b, s, o] = (Σₖ x[b, s, k] · w[o, k]) · scale[o] + bias[o]` with integer
  weights `w`, computed by a tiled kernel, against the plain formula `Σₖ x[b, s, k] · (w[o, k] · scale[o]) + bias[o]`.

  The kernel flattens the leading axes of `x`, walks a 16 × 4 × 8 grid of (row tile, column tile, contraction tile),
  keeps a [512, 1024] accumulator across the 8 contraction tiles of one output tile (zeroed at the first, the
  product of the x block and the weight block added at each), and at the last multiplies by the scale row, adds
  the bias row and writes the output tile; the result is unflattened. Over the extended reals each format change
  is the identity, an integer weight is itself, and the matrix unit's product is the plain sum of products, so
  the kernel's result is the formula with the sum taken tile by tile and the scale applied afterwards.

  The two formulas differ by moving the factor `scale[o]` across a finite sum. That is a law of the real numbers,
  not of the extended reals, so the precondition is used: every entry of `x`, `scale` and `bias` is finite, hence a
  real; the weights are integers. With every term real, a sum over 4096 indices is the double sum over 8 tiles of
  512, and the common factor comes out.

  The three programs terminate without fault and leave their arguments unchanged: for the two kernel programs this
  is the generated frame; for the reference it is its generated run with the result dropped. The idealization
  rewrote nothing, so the kernel's idealized text is its own text read over the extended reals.
-/
import proofs.«106776_j81750407512101_1_alg».proof.Defs
import proofs.«106776_j81750407512101_1_alg».proof.Proof.Gen.Kernel
import proofs.«106776_j81750407512101_1_alg».proof.Proof.Gen.Kernel.Skeleton
import proofs.«106776_j81750407512101_1_alg».proof.Proof.Gen.Kernel.Launch
import proofs.«106776_j81750407512101_1_alg».proof.Proof.Gen.Kernel.Points
import proofs.«106776_j81750407512101_1_alg».proof.Proof.Gen.Kernel.Frame
import proofs.«106776_j81750407512101_1_alg».proof.Proof.Gen.KernelIdeal
import proofs.«106776_j81750407512101_1_alg».proof.Proof.Gen.KernelIdeal.Skeleton
import proofs.«106776_j81750407512101_1_alg».proof.Proof.Gen.KernelIdeal.Launch
import proofs.«106776_j81750407512101_1_alg».proof.Proof.Gen.KernelIdeal.Points
import proofs.«106776_j81750407512101_1_alg».proof.Proof.Gen.KernelIdeal.Frame
import proofs.«106776_j81750407512101_1_alg».proof.Proof.Gen.ReferenceIdeal
import proofs.«106776_j81750407512101_1_alg».proof.Proof.Gen.Pre_finite_inputs
import proofs.«106776_j81750407512101_1_alg».proof.Proof.Gen.ReferenceIdeal.Run
import proofs.«106776_j81750407512101_1_alg».proof.Proof.Gen.ReferenceIdeal.Read
import proofs.«106776_j81750407512101_1_alg».proof.Proof.Spec
import proofs.«106776_j81750407512101_1_alg».proof.Proof.FiniteInputs
import proofs.«106776_j81750407512101_1_alg».proof.Proof.KernelResult
import proofs.«106776_j81750407512101_1_alg».proof.Proof.ReferenceResult
import Idealize.ShloMosaic.Adequacy
import Idealize.ShloMosaic.Init

noncomputable section

namespace Cert.Proof

open Idealize.ShloMosaic Idealize.SL.Sem Cert.DequantMatmul

/-- The kernel as printed runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the arguments, both programs end with the same result: the kernel's is the layer
    with the scale applied after the tile-by-tile sum, the reference's with the scale inside the sum, and on the
    finite inputs the precondition admits these are one function. -/
theorem algebraic : Cert.algebraic_KernelIdeal_ReferenceIdeal := by
  intro m ρ m' ρ' hpre hagree
  refine ⟨fun c => scaleAfter (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.stage_eq,
    (hagree c).1, (hagree c).2.1, (hagree c).2.2.1, (hagree c).2.2.2]
  obtain ⟨hx, hs, hb⟩ := Cert.Pre_finite_inputs.Finite.finite_of_pre _ _ _ _ (hpre c)
  exact (scaleAfter_eq_scaleInside _ _ _ _ hx hs hb).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
